-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50x64x336 : Shape := ⟨3, ![50, 64, 336]⟩
abbrev S64x336 : Shape := ⟨2, ![64, 336]⟩
abbrev S_ : Shape := ⟨0, ![]⟩

class Facts : Prop where
  bcast_S_S50x64x336 : S_.BroadcastsInDim S50x64x336 (![] : Fin 0 → Fin S50x64x336.rank)
  reducesTo_S50x64x336_S_d0_1_2 : S50x64x336.ReducesTo [0, 1, 2] S_
  h_S_ : 0 < S_.numel
  bcast_S_S64x336 : S_.BroadcastsInDim S64x336 (![] : Fin 0 → Fin S64x336.rank)
  reducesTo_S64x336_S_d0_1 : S64x336.ReducesTo [0, 1] S_

variable [Facts]

def fn {F : FTy → Type} [FloatOps F] (main_arg0 : FVec F S50x64x336 .f32) (main_arg1 : FVec F S64x336 .f32) : IVec S_ 1 :=
  let main_v0 : FVec F S50x64x336 .f32 := Host.absf main_arg0
  let main_cst : FVec F S_ .f32 := constant S_ .f32 0x7F800000#32
  let main_v1 : FVec F S50x64x336 .f32 := broadcastInDim S50x64x336 ![] bcast_S_S50x64x336 main_cst
  let main_v2 : IVec S50x64x336 1 := cmpf .olt main_v0 main_v1
  let main_c : IVec S_ 1 := constantI S_ 1 1#1
  let main_v3 : IVec S_ 1 := (fun x v => Host.reduce IntOp.andi x v reducesTo_S50x64x336_S_d0_1_2 h_S_) main_v2 main_c
  let main_v4 : FVec F S64x336 .f32 := Host.absf main_arg1
  let main_cst_0 : FVec F S_ .f32 := constant S_ .f32 0x7F800000#32
  let main_v5 : FVec F S64x336 .f32 := broadcastInDim S64x336 ![] bcast_S_S64x336 main_cst_0
  let main_v6 : IVec S64x336 1 := cmpf .olt main_v4 main_v5
  let main_c_1 : IVec S_ 1 := constantI S_ 1 1#1
  let main_v7 : IVec S_ 1 := (fun x v => Host.reduce IntOp.andi x v reducesTo_S64x336_S_d0_1 h_S_) main_v6 main_c_1
  let main_v8 : IVec S_ 1 := andi main_v3 main_v7
  main_v8
-- ==== Kernel.lean ====
abbrev S50x64x336 : Shape := ⟨3, ![50, 64, 336]⟩
abbrev S64x336 : Shape := ⟨2, ![64, 336]⟩
abbrev S50x21504 : Shape := ⟨2, ![50, 21504]⟩
abbrev S1x21504 : Shape := ⟨2, ![1, 21504]⟩
abbrev S50x3072 : Shape := ⟨2, ![50, 3072]⟩
abbrev S1x3072 : Shape := ⟨2, ![1, 3072]⟩
abbrev S3072 : Shape := ⟨1, ![3072]⟩

abbrev nBuf : Space → Nat
  | .hbm => 6
  | .vmem => 6
  | .smem => 0
  | _ => 0

abbrev bufTy : (tb : Table) → Fin (tcTables nBuf tb) → BufTy
  | .hbm, ⟨0, _⟩ => ⟨S50x64x336, .f32⟩
  | .hbm, ⟨1, _⟩ => ⟨S64x336, .f32⟩
  | .hbm, ⟨2, _⟩ => ⟨S50x21504, .f32⟩
  | .hbm, ⟨3, _⟩ => ⟨S1x21504, .f32⟩
  | .hbm, ⟨4, _⟩ => ⟨S1x21504, .f32⟩
  | .hbm, ⟨5, _⟩ => ⟨S64x336, .f32⟩
  | .local _ .vmem, ⟨0, _⟩ => ⟨S50x3072, .f32⟩
  | .local _ .vmem, ⟨1, _⟩ => ⟨S50x3072, .f32⟩
  | .local _ .vmem, ⟨2, _⟩ => ⟨S1x3072, .f32⟩
  | .local _ .vmem, ⟨3, _⟩ => ⟨S1x3072, .f32⟩
  | .local _ .vmem, ⟨4, _⟩ => ⟨S1x3072, .f32⟩
  | .local _ .vmem, ⟨5, _⟩ => ⟨S1x3072, .f32⟩
  | _, _ => ⟨S50x64x336, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![7], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S50x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S50x64x336_S50x21504 : S50x64x336.ShapeCasts S50x21504
  shapeCasts_S64x336_S1x21504 : S64x336.ShapeCasts S1x21504
  inb_S50x3072_S50x3072_0_0 : ∀ a, (![0, 0] : Fin 2 → Nat) a + S50x3072.size a ≤ S50x3072.size a
  h_S50x3072 : 0 < S50x3072.numel
  shapeCasts_S50x3072_S50x3072 : S50x3072.ShapeCasts S50x3072
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S50x3072 : S1x3072.Broadcasts S50x3072
  reduces_S50x3072_S3072 : S50x3072.Reduces [0] S3072
  shapeCasts_S3072_S1x3072 : S3072.ShapeCasts S1x3072
  slices_S50x3072_o0_0_S1x3072 : S50x3072.Slices ![0, 0] S1x3072
  slices_S50x3072_o1_0_S1x3072 : S50x3072.Slices ![1, 0] S1x3072
  slices_S50x3072_o2_0_S1x3072 : S50x3072.Slices ![2, 0] S1x3072
  slices_S50x3072_o3_0_S1x3072 : S50x3072.Slices ![3, 0] S1x3072
  slices_S50x3072_o4_0_S1x3072 : S50x3072.Slices ![4, 0] S1x3072
  slices_S50x3072_o5_0_S1x3072 : S50x3072.Slices ![5, 0] S1x3072
  slices_S50x3072_o6_0_S1x3072 : S50x3072.Slices ![6, 0] S1x3072
  slices_S50x3072_o7_0_S1x3072 : S50x3072.Slices ![7, 0] S1x3072
  slices_S50x3072_o8_0_S1x3072 : S50x3072.Slices ![8, 0] S1x3072
  slices_S50x3072_o9_0_S1x3072 : S50x3072.Slices ![9, 0] S1x3072
  slices_S50x3072_o10_0_S1x3072 : S50x3072.Slices ![10, 0] S1x3072
  slices_S50x3072_o11_0_S1x3072 : S50x3072.Slices ![11, 0] S1x3072
  slices_S50x3072_o12_0_S1x3072 : S50x3072.Slices ![12, 0] S1x3072
  slices_S50x3072_o13_0_S1x3072 : S50x3072.Slices ![13, 0] S1x3072
  slices_S50x3072_o14_0_S1x3072 : S50x3072.Slices ![14, 0] S1x3072
  slices_S50x3072_o15_0_S1x3072 : S50x3072.Slices ![15, 0] S1x3072
  slices_S50x3072_o16_0_S1x3072 : S50x3072.Slices ![16, 0] S1x3072
  slices_S50x3072_o17_0_S1x3072 : S50x3072.Slices ![17, 0] S1x3072
  slices_S50x3072_o18_0_S1x3072 : S50x3072.Slices ![18, 0] S1x3072
  slices_S50x3072_o19_0_S1x3072 : S50x3072.Slices ![19, 0] S1x3072
  slices_S50x3072_o20_0_S1x3072 : S50x3072.Slices ![20, 0] S1x3072
  slices_S50x3072_o21_0_S1x3072 : S50x3072.Slices ![21, 0] S1x3072
  slices_S50x3072_o22_0_S1x3072 : S50x3072.Slices ![22, 0] S1x3072
  slices_S50x3072_o23_0_S1x3072 : S50x3072.Slices ![23, 0] S1x3072
  slices_S50x3072_o24_0_S1x3072 : S50x3072.Slices ![24, 0] S1x3072
  slices_S50x3072_o25_0_S1x3072 : S50x3072.Slices ![25, 0] S1x3072
  slices_S50x3072_o26_0_S1x3072 : S50x3072.Slices ![26, 0] S1x3072
  slices_S50x3072_o27_0_S1x3072 : S50x3072.Slices ![27, 0] S1x3072
  slices_S50x3072_o28_0_S1x3072 : S50x3072.Slices ![28, 0] S1x3072
  slices_S50x3072_o29_0_S1x3072 : S50x3072.Slices ![29, 0] S1x3072
  slices_S50x3072_o30_0_S1x3072 : S50x3072.Slices ![30, 0] S1x3072
  slices_S50x3072_o31_0_S1x3072 : S50x3072.Slices ![31, 0] S1x3072
  slices_S50x3072_o32_0_S1x3072 : S50x3072.Slices ![32, 0] S1x3072
  slices_S50x3072_o33_0_S1x3072 : S50x3072.Slices ![33, 0] S1x3072
  slices_S50x3072_o34_0_S1x3072 : S50x3072.Slices ![34, 0] S1x3072
  slices_S50x3072_o35_0_S1x3072 : S50x3072.Slices ![35, 0] S1x3072
  slices_S50x3072_o36_0_S1x3072 : S50x3072.Slices ![36, 0] S1x3072
  slices_S50x3072_o37_0_S1x3072 : S50x3072.Slices ![37, 0] S1x3072
  slices_S50x3072_o38_0_S1x3072 : S50x3072.Slices ![38, 0] S1x3072
  slices_S50x3072_o39_0_S1x3072 : S50x3072.Slices ![39, 0] S1x3072
  slices_S50x3072_o40_0_S1x3072 : S50x3072.Slices ![40, 0] S1x3072
  slices_S50x3072_o41_0_S1x3072 : S50x3072.Slices ![41, 0] S1x3072
  slices_S50x3072_o42_0_S1x3072 : S50x3072.Slices ![42, 0] S1x3072
  slices_S50x3072_o43_0_S1x3072 : S50x3072.Slices ![43, 0] S1x3072
  slices_S50x3072_o44_0_S1x3072 : S50x3072.Slices ![44, 0] S1x3072
  slices_S50x3072_o45_0_S1x3072 : S50x3072.Slices ![45, 0] S1x3072
  slices_S50x3072_o46_0_S1x3072 : S50x3072.Slices ![46, 0] S1x3072
  slices_S50x3072_o47_0_S1x3072 : S50x3072.Slices ![47, 0] S1x3072
  slices_S50x3072_o48_0_S1x3072 : S50x3072.Slices ![48, 0] S1x3072
  slices_S50x3072_o49_0_S1x3072 : S50x3072.Slices ![49, 0] S1x3072
  shapeCasts_S1x21504_S64x336 : S1x21504.ShapeCasts S64x336
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S50x3072.size a ≤ S50x21504.size a
  hwx0_0 : ∀ i : grid0.Coords, EltTy.bits .f32 = 32 ∨ (Rect.block (s := S50x21504) S50x3072.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3072.size a ≤ S1x21504.size a
  hwx0_1 : ∀ i : grid0.Coords, EltTy.bits .f32 = 32 ∨ (Rect.block (s := S1x21504) S1x3072.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x3072.size a ≤ S1x21504.size a
  hwx0_2 : ∀ i : grid0.Coords, EltTy.bits .f32 = 32 ∨ (Rect.block (s := S1x21504) S1x3072.size (cc0_transform_2 i) (hinb0_2 i)).WholeWords (EltTy.packing .f32)

variable [Facts₀]

abbrev win0_0 : Pipeline.Window sig grid0 :=
  Pipeline.Window.ofSpec (Memref.whole main_v0) S50x3072.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x3072.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x3072.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S50x64x336 : Shape := ⟨3, ![50, 64, 336]⟩
abbrev S64x336 : Shape := ⟨2, ![64, 336]⟩
abbrev S_ : Shape := ⟨0, ![]⟩
abbrev S64x336x50 : Shape := ⟨3, ![64, 336, 50]⟩
abbrev S64x336x1 : Shape := ⟨3, ![64, 336, 1]⟩
abbrev S64x336x50x1 : Shape := ⟨4, ![64, 336, 50, 1]⟩
abbrev S64x336x1x50 : Shape := ⟨4, ![64, 336, 1, 50]⟩
abbrev S64x336x50x50 : Shape := ⟨4, ![64, 336, 50, 50]⟩

abbrev nBuf : Space → Nat
  | .hbm => 31
  | .vmem => 0
  | .smem => 0
  | _ => 0

abbrev bufTy : (tb : Table) → Fin (tcTables nBuf tb) → BufTy
  | .hbm, ⟨0, _⟩ => ⟨S50x64x336, .f32⟩
  | .hbm, ⟨1, _⟩ => ⟨S64x336, .f32⟩
  | .hbm, ⟨2, _⟩ => ⟨S_, .f32⟩
  | .hbm, ⟨3, _⟩ => ⟨S_, .f32⟩
  | .hbm, ⟨4, _⟩ => ⟨S50x64x336, .f32⟩
  | .hbm, ⟨5, _⟩ => ⟨S50x64x336, .f32⟩
  | .hbm, ⟨6, _⟩ => ⟨S64x336x50, .f32⟩
  | .hbm, ⟨7, _⟩ => ⟨S64x336x1, .f32⟩
  | .hbm, ⟨8, _⟩ => ⟨S64x336x50, .f32⟩
  | .hbm, ⟨9, _⟩ => ⟨S64x336x50, .f32⟩
  | .hbm, ⟨10, _⟩ => ⟨S64x336x50, .f32⟩
  | .hbm, ⟨11, _⟩ => ⟨S_, .f32⟩
  | .hbm, ⟨12, _⟩ => ⟨S64x336, .f32⟩
  | .hbm, ⟨13, _⟩ => ⟨S_, .f32⟩
  | .hbm, ⟨14, _⟩ => ⟨S64x336, .f32⟩
  | .hbm, ⟨15, _⟩ => ⟨S64x336, .f32⟩
  | .hbm, ⟨16, _⟩ => ⟨S64x336x50x1, .f32⟩
  | .hbm, ⟨17, _⟩ => ⟨S64x336x1x50, .f32⟩
  | .hbm, ⟨18, _⟩ => ⟨S64x336x50x50, .f32⟩
  | .hbm, ⟨19, _⟩ => ⟨S64x336x50x50, .f32⟩
  | .hbm, ⟨20, _⟩ => ⟨S64x336x50x50, .f32⟩
  | .hbm, ⟨21, _⟩ => ⟨S64x336x50x50, .f32⟩
  | .hbm, ⟨22, _⟩ => ⟨S_, .f32⟩
  | .hbm, ⟨23, _⟩ => ⟨S64x336, .f32⟩
  | .hbm, ⟨24, _⟩ => ⟨S_, .f32⟩
  | .hbm, ⟨25, _⟩ => ⟨S64x336, .f32⟩
  | .hbm, ⟨26, _⟩ => ⟨S64x336, .f32⟩
  | .hbm, ⟨27, _⟩ => ⟨S_, .f32⟩
  | .hbm, ⟨28, _⟩ => ⟨S64x336, .f32⟩
  | .hbm, ⟨29, _⟩ => ⟨S64x336, .f32⟩
  | .hbm, ⟨30, _⟩ => ⟨S64x336, .f32⟩
  | _, _ => ⟨S50x64x336, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_call0_v0 : Ref sig .tc := ⟨.hbm, 3, rfl⟩
abbrev main_call0_v1 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩

abbrev nD : Nat := 1
abbrev τ : Topo := Topo.v7x

variable {F : FTy → Type} [FloatOps F]

class Facts₀ : Prop where
  bcast_S_S50x64x336 : S_.BroadcastsInDim S50x64x336 (![] : Fin 0 → Fin S50x64x336.rank)
  transposes_S50x64x336_S64x336x50_1_2_0 : S50x64x336.Transposes [1, 2, 0] S64x336x50
  bcast_S64x336_S64x336x1_0_1 : S64x336.BroadcastsInDim S64x336x1 (![0, 1] : Fin 2 → Fin S64x336x1.rank)
  bcast_S64x336x1_S64x336x50_0_1_2 : S64x336x1.BroadcastsInDim S64x336x50 (![0, 1, 2] : Fin 3 → Fin S64x336x50.rank)
  reducesTo_S64x336x50_S64x336_d2 : S64x336x50.ReducesTo [2] S64x336
  h_S_ : 0 < S_.numel
  bcast_S_S64x336 : S_.BroadcastsInDim S64x336 (![] : Fin 0 → Fin S64x336.rank)
  bcast_S64x336x50_S64x336x50x1_0_1_2 : S64x336x50.BroadcastsInDim S64x336x50x1 (![0, 1, 2] : Fin 3 → Fin S64x336x50x1.rank)
  bcast_S64x336x50_S64x336x1x50_0_1_3 : S64x336x50.BroadcastsInDim S64x336x1x50 (![0, 1, 3] : Fin 3 → Fin S64x336x1x50.rank)
  bcast_S64x336x50x1_S64x336x50x50_0_1_2_3 : S64x336x50x1.BroadcastsInDim S64x336x50x50 (![0, 1, 2, 3] : Fin 4 → Fin S64x336x50x50.rank)
  bcast_S64x336x1x50_S64x336x50x50_0_1_2_3 : S64x336x1x50.BroadcastsInDim S64x336x50x50 (![0, 1, 2, 3] : Fin 4 → Fin S64x336x50x50.rank)
  reducesTo_S64x336x50x50_S64x336_d2_3 : S64x336x50x50.ReducesTo [2, 3] S64x336

variable [Facts₀]

class Facts : Prop extends Facts₀ where

variable [Facts]
-- ==== Proof.RowSteps.lean ====
/-
  Row steps over a 50-row block of clipped ensemble members, at the extended reals.

  The energy form of the ensemble score needs, at each column q of a block v of 50 rows, the
  pairwise spread  Σ_j Σ_k |v(j,q) − v(k,q)|.  A program may take it one row j at a time: slice
  row j, lay it over all 50 rows, subtract the block, take absolute values, sum down the rows,
  and add the result onto a running total.  This module names each of those whole-array values
  (`sliceRow`, `absRow`, `spreadRow`, and the running total `accRow v n` = the sum of the
  first n rows' spreads) and proves that the vector operations compute them; the running total
  after all 50 rows is the double sum (`accRow_all`).  Only commutativity and associativity of
  + on the extended reals are used, so nothing here asks the entries to be finite.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.Crps

open Idealize.ShloMosaic Idealize.ShloMosaic.ValueIdx
open scoped BigOperators

abbrev B50x3072 : Shape := ⟨2, ![50, 3072]⟩
abbrev B1x3072 : Shape := ⟨2, ![1, 3072]⟩
abbrev B3072 : Shape := ⟨1, ![3072]⟩

/-- The absolute value on the extended reals, as both programs compute it. -/
def eabs (x : EReal) : EReal := max x (-x)

section Block
variable (v : B50x3072.Idx → EReal)

/-- Row `j` of the block at column `q` (zero past the last row, so that `j` may be any natural). -/
def rowAt (j : ℕ) (q : Fin 3072) : EReal := if h : j < 50 then v (ix2 (⟨j, h⟩ : Fin 50) q) else 0

/-- The spread of row `j` at column `q`: its distance to every row of the block, summed. -/
def spread (j : ℕ) (q : Fin 3072) : EReal := ∑ k : Fin 50, eabs (rowAt v j q - v (ix2 k q))

/-- Row `j` as a one-row array. -/
def sliceRow (j : ℕ) : B1x3072.Idx → EReal := fun y => rowAt v j (y 1 : Fin 3072)
/-- The distances of row `j` to every entry of the block, column by column. -/
def absRow (j : ℕ) : B50x3072.Idx → EReal := fun y => eabs (rowAt v j (y 1 : Fin 3072) - v y)
/-- Row `j`'s spread as a one-row array. -/
def spreadRow (j : ℕ) : B1x3072.Idx → EReal := fun y => spread v j (y 1 : Fin 3072)
/-- The running total: the spreads of rows `0 … n − 1`, added. -/
def accRow (n : ℕ) : B1x3072.Idx → EReal := fun y => ∑ j ∈ Finset.range n, spread v j (y 1 : Fin 3072)

theorem rowAt_of_lt {j : ℕ} (h : j < 50) (q : Fin 3072) : rowAt v j q = v (ix2 (⟨j, h⟩ : Fin 50) q) := dif_pos h

/-- Slicing row `j` out of the block. -/
theorem slice_eq (j : ℕ) (hs : B50x3072.Slices ![j, 0] B1x3072) :
    extractStridedSlice B1x3072 ![j, 0] v hs = sliceRow v j := by
  have hj : j < 50 := by
    obtain ⟨_, hall⟩ := hs
    have h0 : j + 1 ≤ 50 := hall 0
    omega
  funext y
  obtain ⟨u, q, rfl⟩ : ∃ (u : Fin 1) (q : Fin 3072), y = ix2 u q := ⟨y 0, y 1, eq_ix2 y⟩
  have hu : u.val = 0 := by omega
  show _ = rowAt v j q
  rw [rowAt_of_lt v hj]
  refine extractStridedSlice_apply ![j, 0] v hs (ix2 u q) (ix2 (⟨j, hj⟩ : Fin 50) q) fun a => ?_
  match a with
  | ⟨0, _⟩ => show j = j + u.val; omega
  | ⟨1, _⟩ => show q.val = 0 + q.val; omega

/-- Laying row `j` over the 50 rows, subtracting the block and taking absolute values. -/
theorem abs_eq (j : ℕ) (hb : B1x3072.Broadcasts B50x3072) :
    absf (F := Ideal) (φ := .f32) (subf (broadcastTo B50x3072 (sliceRow v j) hb) v) = absRow v j := by
  funext y
  obtain ⟨k, q, rfl⟩ : ∃ (k : Fin 50) (q : Fin 3072), y = ix2 k q := ⟨y 0, y 1, eq_ix2 y⟩
  show max (broadcastTo B50x3072 (sliceRow v j) hb (ix2 k q) - v (ix2 k q)) (-(broadcastTo B50x3072 (sliceRow v j) hb (ix2 k q) - v (ix2 k q))) = _
  rw [broadcastTo_1b_ab_apply (sliceRow v j) hb k q]
  rfl

/-- Summing those distances down the rows, as a one-row array. -/
theorem sum_eq (j : ℕ) (axes : List (Fin B50x3072.rank)) (hax : axes = [0]) (hr : B50x3072.Reduces axes B3072)
    (hc : B3072.ShapeCasts B1x3072) :
    shapeCast B1x3072 (FloatOps.reduceAdd (F := Ideal) (φ := .f32) axes hr (absRow v j)) hc = spreadRow v j := by
  subst hax
  funext y
  obtain ⟨u, q, rfl⟩ : ∃ (u : Fin 1) (q : Fin 3072), y = ix2 u q := ⟨y 0, y 1, eq_ix2 y⟩
  rw [shapeCast_a_1a_apply _ hc u q]
  refine (Ideal.multiReduction_add_single (φ := .f32) (absRow v j) 0x00000000#32 hr (.inl rfl) rfl (ix1 q)).trans ?_
  show _ = ∑ k : Fin 50, eabs (rowAt v j q - v (ix2 k q))
  refine Finset.sum_congr rfl fun k _ => ?_
  have e : hr.lift (ix1 q) k = ix2 k q := by
    funext a
    apply Fin.ext
    match a with
    | ⟨0, _⟩ => rfl
    | ⟨1, _⟩ => rfl
  rw [e]
  rfl

/-- The running total starts from the zero splat. -/
theorem acc_zero : broadcast B1x3072 (Scalar.ofBits (F := Ideal) .f32 0x00000000#32) = accRow v 0 := by
  funext y
  show Ideal.ofBits .f32 0x00000000#32 = ∑ j ∈ Finset.range 0, _
  rw [Finset.sum_range_zero, Ideal.ofBits_zero_f32]

/-- The first step: row 0's spread added onto the zero splat. -/
theorem acc_first : addf (F := Ideal) (φ := .f32) (broadcast B1x3072 (Scalar.ofBits (F := Ideal) .f32 0x00000000#32)) (spreadRow v 0) = accRow v 1 := by
  funext y
  show Ideal.ofBits .f32 0x00000000#32 + spread v 0 (y 1 : Fin 3072) = ∑ j ∈ Finset.range 1, _
  rw [Finset.sum_range_one, Ideal.ofBits_zero_f32, zero_add]

/-- Adding row `n`'s spread onto the total of the rows before it. -/
theorem acc_succ (n : ℕ) : addf (F := Ideal) (φ := .f32) (accRow v n) (spreadRow v n) = accRow v (n + 1) := by
  funext y
  show (∑ j ∈ Finset.range n, spread v j (y 1 : Fin 3072)) + spread v n (y 1 : Fin 3072) = ∑ j ∈ Finset.range (n + 1), _
  rw [Finset.sum_range_succ]

/-- After all 50 rows the running total is the pairwise spread of the block's rows. -/
theorem accRow_all (u : Fin 1) (q : Fin 3072) :
    accRow v 50 (ix2 u q) = ∑ j : Fin 50, ∑ k : Fin 50, eabs (v (ix2 j q) - v (ix2 k q)) := by
  show ∑ j ∈ Finset.range 50, spread v j q = _
  rw [← Fin.sum_univ_eq_sum_range (fun j => spread v j q) 50]
  refine Finset.sum_congr rfl fun j _ => ?_
  show ∑ k : Fin 50, eabs (rowAt v j.val q - v (ix2 k q)) = _
  rw [rowAt_of_lt v j.isLt q]

/-- The distances of every row to a one-row array `o` (the observation), summed down the rows. -/
def devRow (o : B1x3072.Idx → EReal) : B1x3072.Idx → EReal :=
  fun y => ∑ k : Fin 50, eabs (v (ix2 k (y 1 : Fin 3072)) - o (ix2 (0 : Fin 1) (y 1 : Fin 3072)))

/-- Laying `o` over the 50 rows, subtracting it from the block, absolute values, and the sum down the rows. -/
theorem dev_eq (o : B1x3072.Idx → EReal) (axes : List (Fin B50x3072.rank)) (hax : axes = [0])
    (hb : B1x3072.Broadcasts B50x3072) (hr : B50x3072.Reduces axes B3072) (hc : B3072.ShapeCasts B1x3072) :
    shapeCast B1x3072 (FloatOps.reduceAdd (F := Ideal) (φ := .f32) axes hr
      (absf (F := Ideal) (φ := .f32) (subf v (broadcastTo B50x3072 o hb)))) hc = devRow v o := by
  subst hax
  funext y
  obtain ⟨u, q, rfl⟩ : ∃ (u : Fin 1) (q : Fin 3072), y = ix2 u q := ⟨y 0, y 1, eq_ix2 y⟩
  rw [shapeCast_a_1a_apply _ hc u q]
  refine (Ideal.multiReduction_add_single (φ := .f32) (absf (F := Ideal) (φ := .f32) (subf v (broadcastTo B50x3072 o hb))) 0x00000000#32 hr (.inl rfl) rfl (ix1 q)).trans ?_
  show _ = ∑ k : Fin 50, eabs (v (ix2 k q) - o (ix2 (0 : Fin 1) q))
  refine Finset.sum_congr rfl fun k _ => ?_
  have e : hr.lift (ix1 q) k = ix2 k q := by
    funext a
    apply Fin.ext
    match a with
    | ⟨0, _⟩ => rfl
    | ⟨1, _⟩ => rfl
  rw [e]
  show max (v (ix2 k q) - broadcastTo B50x3072 o hb (ix2 k q)) (-(v (ix2 k q) - broadcastTo B50x3072 o hb (ix2 k q))) = _
  rw [broadcastTo_1b_ab_apply o hb k q]
  rfl

/-- The score row of a block `v` of clipped members against the observation row `o`: the mean distance to the
    observation less the scaled mean pairwise spread, with the programs' own three constants (50, 4900 and the
    single-precision 0.9999) kept as their words. -/
def scoreRow (o : B1x3072.Idx → EReal) : B1x3072.Idx → EReal :=
  fun y => Ideal.div (devRow v o y) (Ideal.ofBits .f32 0x42480000#32)
    - Ideal.ofBits .f32 0x3F7FF972#32 * Ideal.div (accRow v 50 y) (Ideal.ofBits .f32 0x45992000#32)

end Block

end Cert.Crps

end
-- ==== Proof.BodyRows.lean ====
/-
  The kernel body's arithmetic, read as row steps.

  The body clips its 50 × 3072 block of members below at a constant (`clip_eq`), takes the mean distance of the
  clipped rows to the observation row (`mean_eq`), and accumulates the pairwise spread one row at a time, in 50
  unrolled steps that the printed program carries in pieces.  Each piece is one of three things: a running total
  after some number of rows (`accRow v n`), the distances of one row to the whole block waiting to be summed
  (`absRow v j`), or one row sliced out and waiting to be laid over the block (`sliceRow v j`).  The pieces are
  read here in program order, each by the step lemmas for its rows; chained, the stored value is `scoreRow` of the
  clipped block and the observation row (`stored_eq`).
-/
import proofs.«152813_j29205777613261_1_alg».proof.Proof.Gen.KernelIdeal.Skeleton
import proofs.«152813_j29205777613261_1_alg».proof.Proof.RowSteps

noncomputable section

namespace Cert.Crps.Body

open Idealize.ShloMosaic Idealize.ShloMosaic.ValueIdx Cert.KernelIdeal Cert.KernelIdeal.Gen Cert.Crps
open scoped BigOperators

/-- The members of the block clipped below at the constant. -/
def clipped (x : B50x3072.Idx → EReal) : B50x3072.Idx → EReal := fun y => max (x y) (Ideal.ofBits .f32 0xBE892697#32)

theorem clip_eq (x0 : Vec Ideal S50x3072 .f32) : k0_pay2 (F := Ideal) x0 = clipped x0 := by
  unfold k0_pay2
  simp only [shapeCast_self]
  rfl

variable (v : FVec Ideal S50x3072 .f32)

/-- The mean distance to the observation: the clipped rows' distances to it summed, over 50. -/
theorem mean_eq (x0 : Vec Ideal S50x3072 .f32) (x1 : Vec Ideal S1x3072 .f32) :
    k0_pay3 (F := Ideal) x0 x1 = fun y => Ideal.div (devRow (k0_pay2 (F := Ideal) x0) x1 y) (Ideal.ofBits .f32 0x42480000#32) := by
  unfold k0_pay3
  simp only [multiReduction, shapeCast_self, dev_eq]
  rfl

/-- Rows 0 to 3. -/
theorem rows_0_3 (x0 : Vec Ideal S50x3072 .f32) : k0_pay4 (F := Ideal) x0 = accRow (k0_pay2 (F := Ideal) x0) 4 := by
  unfold k0_pay4
  simp only [multiReduction, slice_eq, abs_eq, sum_eq, acc_first, acc_succ, Nat.reduceAdd]

/-- Row 4's distances. -/
theorem row_4 (x0 : Vec Ideal S50x3072 .f32) : k0_pay5 (F := Ideal) x0 = absRow (k0_pay2 (F := Ideal) x0) 4 := by
  unfold k0_pay5
  simp only [slice_eq, abs_eq]

/-- Rows 4 to 11. -/
theorem rows_4_11 : k0_pay6 (F := Ideal) v (accRow v 4) (absRow v 4) = accRow v 12 := by
  unfold k0_pay6
  simp only [multiReduction, slice_eq, abs_eq, sum_eq, acc_succ, Nat.reduceAdd]

/-- Row 12 sliced out. -/
theorem row_12 : k0_pay7 (F := Ideal) v = sliceRow v 12 := by
  unfold k0_pay7
  simp only [slice_eq]

/-- Rows 12 to 18. -/
theorem rows_12_18 : k0_pay8 (F := Ideal) v (accRow v 12) (sliceRow v 12) = accRow v 19 := by
  unfold k0_pay8
  simp only [multiReduction, slice_eq, abs_eq, sum_eq, acc_succ, Nat.reduceAdd]

/-- Row 19's distances. -/
theorem row_19 : k0_pay9 (F := Ideal) v = absRow v 19 := by
  unfold k0_pay9
  simp only [slice_eq, abs_eq]

/-- Rows 19 to 26. -/
theorem rows_19_26 : k0_pay10 (F := Ideal) v (accRow v 19) (absRow v 19) = accRow v 27 := by
  unfold k0_pay10
  simp only [multiReduction, slice_eq, abs_eq, sum_eq, acc_succ, Nat.reduceAdd]

/-- Row 27 sliced out. -/
theorem row_27 : k0_pay11 (F := Ideal) v = sliceRow v 27 := by
  unfold k0_pay11
  simp only [slice_eq]

/-- Rows 27 to 33. -/
theorem rows_27_33 : k0_pay12 (F := Ideal) v (accRow v 27) (sliceRow v 27) = accRow v 34 := by
  unfold k0_pay12
  simp only [multiReduction, slice_eq, abs_eq, sum_eq, acc_succ, Nat.reduceAdd]

/-- Row 34's distances. -/
theorem row_34 : k0_pay13 (F := Ideal) v = absRow v 34 := by
  unfold k0_pay13
  simp only [slice_eq, abs_eq]

/-- Rows 34 to 41. -/
theorem rows_34_41 : k0_pay14 (F := Ideal) v (accRow v 34) (absRow v 34) = accRow v 42 := by
  unfold k0_pay14
  simp only [multiReduction, slice_eq, abs_eq, sum_eq, acc_succ, Nat.reduceAdd]

/-- Row 42 sliced out. -/
theorem row_42 : k0_pay15 (F := Ideal) v = sliceRow v 42 := by
  unfold k0_pay15
  simp only [slice_eq]

/-- Rows 42 to 48. -/
theorem rows_42_48 : k0_pay16 (F := Ideal) v (accRow v 42) (sliceRow v 42) = accRow v 49 := by
  unfold k0_pay16
  simp only [multiReduction, slice_eq, abs_eq, sum_eq, acc_succ, Nat.reduceAdd]

/-- Row 49's distances. -/
theorem row_49 : k0_pay17 (F := Ideal) v = absRow v 49 := by
  unfold k0_pay17
  simp only [slice_eq, abs_eq]

/-- The last row, the two divisions and the difference: the stored row. -/
theorem last_eq (o : FVec Ideal S1x3072 .f32) (mean : FVec Ideal S1x3072 .f32)
    (hmean : mean = fun y => Ideal.div (devRow v o y) (Ideal.ofBits .f32 0x42480000#32)) :
    k0_pay1 (F := Ideal) mean (accRow v 49) (absRow v 49) = scoreRow v o := by
  unfold k0_pay1
  simp only [multiReduction, sum_eq, acc_succ, Nat.reduceAdd]
  subst hmean
  rfl

/-- The whole chain: what the body stores is the score row of the clipped block against the observation row. -/
theorem stored_eq (x0 : Vec Ideal S50x3072 .f32) (x1 : Vec Ideal S1x3072 .f32) :
    k0_pay1 (F := Ideal) (k0_pay3 x0 x1) (k0_pay16 (k0_pay2 x0) (k0_pay14 (k0_pay2 x0) (k0_pay12 (k0_pay2 x0) (k0_pay10 (k0_pay2 x0) (k0_pay8 (k0_pay2 x0) (k0_pay6 (k0_pay2 x0) (k0_pay4 x0) (k0_pay5 x0)) (k0_pay7 (k0_pay2 x0))) (k0_pay9 (k0_pay2 x0))) (k0_pay11 (k0_pay2 x0))) (k0_pay13 (k0_pay2 x0))) (k0_pay15 (k0_pay2 x0))) (k0_pay17 (k0_pay2 x0))
      = scoreRow (clipped x0) x1 := by
  rw [rows_0_3, row_4, rows_4_11, row_12, rows_12_18, row_19, rows_19_26, row_27, rows_27_33, row_34, rows_34_41,
    row_42, rows_42_48, row_49, last_eq (k0_pay2 (F := Ideal) x0) x1 _ (mean_eq x0 x1), clip_eq]

end Cert.Crps.Body

end
-- ==== Proof.Score.lean ====
/-
  The ensemble score as one function of the two arguments, and the host's sum over the two member axes.

  For members f[j, b, s] (j < 50) and an observation obs[b, s], each member is first clipped below at a constant;
  the score at (b, s) is the mean distance of the clipped members to the observation, less a constant times the
  mean pairwise distance of the clipped members:
      score(b, s) = (Σ_j |c_j − obs|) / 50  −  κ · (Σ_j Σ_k |c_j − c_k|) / 4900,   c_j = max(f[j, b, s], clip).
  The three constants are kept as the single-precision words both programs spell (50, 4900, and the
  single-precision value nearest 0.9999); they are never evaluated.

  A program may form the pairwise distances as a [64, 336, 50, 50] array and sum it over its last two axes in one
  reduction.  `pairs_sum` reads that reduction at (b, s): the indices that reduce to (b, s) are exactly the
  (b, s, j, k), so the sum is the double sum over j and k, after the initial value.
-/
import Idealize.ShloMosaic.PureOps.Ideal
import Idealize.ShloMosaic.PureOps.Ideal.Laws
import Idealize.ShloMosaic.PureOps.Reduce
import Idealize.ShloMosaic.Lib.ValueIdx
import proofs.«152813_j29205777613261_1_alg».proof.Proof.RowSteps

noncomputable section

namespace Cert.Crps

open Idealize.ShloMosaic Idealize.ShloMosaic.ValueIdx
open scoped BigOperators

abbrev A50x64x336 : Shape := ⟨3, ![50, 64, 336]⟩
abbrev A64x336 : Shape := ⟨2, ![64, 336]⟩
abbrev A64x336x50x50 : Shape := ⟨4, ![64, 336, 50, 50]⟩

/-- Member `j` at (b, s), clipped below. -/
def member (f : A50x64x336.Idx → EReal) (b : Fin 64) (s : Fin 336) (j : Fin 50) : EReal :=
  max (f (ix3 j b s)) (Ideal.ofBits .f32 0xBE892697#32)

/-- The score at (b, s). -/
def scoreAt (f : A50x64x336.Idx → EReal) (obs : A64x336.Idx → EReal) (b : Fin 64) (s : Fin 336) : EReal :=
  Ideal.div (∑ j : Fin 50, eabs (member f b s j - obs (ix2 b s))) (Ideal.ofBits .f32 0x42480000#32)
    - Ideal.ofBits .f32 0x3F7FF972#32
      * Ideal.div (∑ j : Fin 50, ∑ k : Fin 50, eabs (member f b s j - member f b s k)) (Ideal.ofBits .f32 0x45992000#32)

/-- The score as an array. -/
def score (f : A50x64x336.Idx → EReal) (obs : A64x336.Idx → EReal) : A64x336.Idx → EReal :=
  fun i => scoreAt f obs (i 0 : Fin 64) (i 1 : Fin 336)

theorem score_apply (f : A50x64x336.Idx → EReal) (obs : A64x336.Idx → EReal) (b : Fin 64) (s : Fin 336) :
    score f obs (ix2 b s) = scoreAt f obs b s := rfl

/-- The host's sum of a [64, 336, 50, 50] array over its last two axes, at (b, s): the initial value plus the double
    sum over the two dropped coordinates. -/
theorem pairs_sum (h : A64x336x50x50.ReducesTo [2, 3] A64x336) (x : A64x336x50x50.Idx → EReal) (init : EReal)
    (b : Fin 64) (s : Fin 336) :
    Ideal.hostReduceAdd h x init (ix2 b s) = init + ∑ j : Fin 50, ∑ k : Fin 50, x (ix4 b s j k) := by
  unfold Ideal.hostReduceAdd
  refine congrArg (init + ·) ?_
  rw [← Fintype.sum_prod_type' (fun j k => x (ix4 b s j k))]
  have hdrop0 : ∀ i : A64x336x50x50.Idx, (h.drop i 0 : ℕ) = (i 0 : ℕ) := fun i => h.drop_apply_val_of_eq i 0 0
  have hdrop1 : ∀ i : A64x336x50x50.Idx, (h.drop i 1 : ℕ) = (i 1 : ℕ) := fun i => h.drop_apply_val_of_eq i 1 1
  refine Finset.sum_nbij' (fun i => ((i 2 : Fin 50), (i 3 : Fin 50))) (fun p => ix4 b s p.1 p.2)
    (fun _ _ => Finset.mem_univ _) ?_ ?_ (fun _ _ => rfl) ?_
  · intro p _
    rw [Finset.mem_filter]
    refine ⟨Finset.mem_univ _, ?_⟩
    funext a
    apply Fin.ext
    match a with
    | ⟨0, _⟩ => exact hdrop0 _
    | ⟨1, _⟩ => exact hdrop1 _
  · intro i hi
    rw [Finset.mem_filter] at hi
    have e0 : (i 0 : ℕ) = b.val := (hdrop0 i).symm.trans (congrArg Fin.val (congrFun hi.2 0))
    have e1 : (i 1 : ℕ) = s.val := (hdrop1 i).symm.trans (congrArg Fin.val (congrFun hi.2 1))
    funext a
    apply Fin.ext
    match a with
    | ⟨0, _⟩ => exact e0.symm
    | ⟨1, _⟩ => exact e1.symm
    | ⟨2, _⟩ => rfl
    | ⟨3, _⟩ => rfl
  · intro i hi
    rw [Finset.mem_filter] at hi
    have e0 : (i 0 : ℕ) = b.val := (hdrop0 i).symm.trans (congrArg Fin.val (congrFun hi.2 0))
    have e1 : (i 1 : ℕ) = s.val := (hdrop1 i).symm.trans (congrArg Fin.val (congrFun hi.2 1))
    refine congrArg x ?_
    funext a
    apply Fin.ext
    match a with
    | ⟨0, _⟩ => exact e0
    | ⟨1, _⟩ => exact e1
    | ⟨2, _⟩ => rfl
    | ⟨3, _⟩ => rfl

end Cert.Crps

end
-- ==== Proof.KernelScore.lean ====
/-
  The kernel computes the score.

  @main reshapes the members to [50, 21504] and the observation to [1, 21504] (row-major, so column p = 336·b + s is
  position (b, s)), runs the body on seven column blocks of width 3072, and reshapes the [1, 21504] result back to
  [64, 336].  At grid point t the body's block holds columns 3072·t … 3072·t + 3071 of each reshaped array
  (`members_blk`, `obs_blk`); what it stores at column q is `scoreRow` of the clipped block against the observation
  row, which at that column is `scoreAt` of the two arguments at the (b, s) whose flat position is 3072·t + q
  (`row_score`: the row steps' double sum is the members' pairwise sum).  So each point writes back its block of the
  flattened score (`written_eq`), the seven blocks fill the array (`covered`), the array ends at the flattened score
  (`flat_final`), and the last reshape undoes the flattening (`tail_eq`): the result is `score` of the arguments.
-/
import proofs.«152813_j29205777613261_1_alg».proof.Proof.Gen.KernelIdeal.Frame
import proofs.«152813_j29205777613261_1_alg».proof.Proof.BodyRows
import proofs.«152813_j29205777613261_1_alg».proof.Proof.Score
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.Crps.Kernel

open Cert.KernelIdeal Cert.KernelIdeal.Gen Cert.Crps Cert.Crps.Body

/-- One column of the stored row: if column `q` of the block holds the members at (b, s) and the observation row holds
    the observation there, the stored value is the score at (b, s). -/
theorem row_score (X0 : B50x3072.Idx → EReal) (X1 : B1x3072.Idx → EReal) (f : A50x64x336.Idx → EReal) (obs : A64x336.Idx → EReal)
    (u : Fin 1) (q : Fin 3072) (b : Fin 64) (s : Fin 336)
    (h0 : ∀ k : Fin 50, X0 (ix2 k q) = f (ix3 k b s)) (h1 : X1 (ix2 (0 : Fin 1) q) = obs (ix2 b s)) :
    scoreRow (clipped X0) X1 (ix2 u q) = scoreAt f obs b s := by
  have hm : ∀ k : Fin 50, clipped X0 (ix2 k q) = member f b s k := fun k => by
    unfold clipped member
    rw [h0 k]
  show Ideal.div (∑ k : Fin 50, eabs (clipped X0 (ix2 k q) - X1 (ix2 (0 : Fin 1) q))) _
      - _ * Ideal.div (accRow (clipped X0) 50 (ix2 u q)) _ = _
  rw [accRow_all]
  simp only [hm, h1]
  rfl

theorem hz : (![0, 0] : Fin 2 → Nat) = fun _ => 0 := funext fun a => by fin_cases a <;> rfl

/-- What the body leaves in the output's staging buffer: the score row of its two blocks. -/
theorem out_eq (x0 : Vec Ideal S50x3072 .f32) (x1 : Vec Ideal S1x3072 .f32) :
    out0_2 (F := Ideal) x0 x1 = scoreRow (clipped x0) x1 := by
  unfold out0_2
  rw [View.canon_unit_zero hz]
  simp only [View.ld_unit_zero (S := S50x3072) hz, View.ld_unit_zero (S := S1x3072) hz]
  exact stored_eq x0 x1

variable (m : (ℓ : Loc nD τ sig) → Buf (Elt Ideal) ℓ) (ρ : Dev nD → PrngReg)

/-- The members as the region finds them: reshaped to [50, 21504]. -/
theorem members_flat (c : Dev nD) :
    (V m c main_v0 : S50x21504.Idx → EReal) = shapeCast S50x21504 (m ((c : Thread nD τ).loc main_arg0)) shapeCasts_S50x64x336_S50x21504 := by
  show StableHlo.after hostOps0 (fun b => m (c, b)) (Proc.devRef .tc main_v0) = _
  after_results
  rfl

/-- The observation as the region finds it: reshaped to [1, 21504]. -/
theorem obs_flat (c : Dev nD) :
    (V m c main_v1 : S1x21504.Idx → EReal) = shapeCast S1x21504 (m ((c : Thread nD τ).loc main_arg1)) shapeCasts_S64x336_S1x21504 := by
  show StableHlo.after hostOps0 (fun b => m (c, b)) (Proc.devRef .tc main_v1) = _
  after_results
  rfl

/-- The printed index maps over the grid: every window's block row is 0 and its block column is the point. -/
theorem idx_facts : ∀ t : Fin cfg0.N, win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = t.val :=
  (by decide +kernel : ∀ t : Fin grid0.N, _)

/-- The members' block at point `t`: columns 3072·t … of the reshaped members. -/
theorem members_blk (c : Dev nD) (t : Fin cfg0.N) (k : Fin 50) (q : Fin 3072) (p : Fin 21504) (hp : p.val = t.val * 3072 + q.val) :
    (iblk m c 0 t : Vec Ideal S50x3072 .f32) (ix2 k q) = (V m c main_v0 : S50x21504.Idx → EReal) (ix2 k p) := by
  obtain ⟨e0, e1, -⟩ := idx_facts t
  unfold iblk
  rw [View.read_apply]
  show V m c main_v0 _ = V m c main_v0 _
  congr 1
  funext a
  apply Fin.ext
  match a with
  | ⟨0, _⟩ => show win0_0.index t (0 : Fin 2) * 50 + 1 * k.val = k.val; rw [e0]; omega
  | ⟨1, _⟩ => show win0_0.index t (1 : Fin 2) * 3072 + 1 * q.val = p.val; rw [e1, hp]; omega

/-- The observation's block at point `t`: the same columns of the reshaped observation. -/
theorem obs_blk (c : Dev nD) (t : Fin cfg0.N) (q : Fin 3072) (p : Fin 21504) (hp : p.val = t.val * 3072 + q.val) :
    (iblk m c 1 t : Vec Ideal S1x3072 .f32) (ix2 (0 : Fin 1) q) = (V m c main_v1 : S1x21504.Idx → EReal) (ix2 (0 : Fin 1) p) := by
  obtain ⟨-, -, e2, e3, -⟩ := idx_facts t
  unfold iblk
  rw [View.read_apply]
  show V m c main_v1 _ = V m c main_v1 _
  congr 1
  funext a
  apply Fin.ext
  match a with
  | ⟨0, _⟩ => show win0_1.index t (0 : Fin 2) * 1 + 1 * 0 = 0; rw [e2]
  | ⟨1, _⟩ => show win0_1.index t (1 : Fin 2) * 3072 + 1 * q.val = p.val; rw [e3, hp]; omega

/-- The reshaped members at column p = 336·b + s are the members at (b, s). -/
theorem members_at (f : S50x64x336.Idx → EReal) (k : Fin 50) (p : Fin 21504) (b : Fin 64) (s : Fin 336) (hp : p.val = b.val * 336 + s.val) :
    shapeCast S50x21504 f shapeCasts_S50x64x336_S50x21504 (ix2 k p) = f (ix3 k b s) :=
  shapeCast_apply f _ (ix2 k p) (ix3 k b s) (by
    rw [Shape.rowMajor_val_three, Shape.rowMajor_val_two]
    show (k.val * 64 + b.val) * 336 + s.val = k.val * 21504 + p.val
    omega)

/-- The reshaped observation at column p = 336·b + s is the observation at (b, s). -/
theorem obs_at (o : S64x336.Idx → EReal) (u : Fin 1) (p : Fin 21504) (b : Fin 64) (s : Fin 336) (hp : p.val = b.val * 336 + s.val) :
    shapeCast S1x21504 o shapeCasts_S64x336_S1x21504 (ix2 u p) = o (ix2 b s) :=
  shapeCast_apply o _ (ix2 u p) (ix2 b s) (by
    rw [Shape.rowMajor_val_two, Shape.rowMajor_val_two]
    show b.val * 336 + s.val = u.val * 21504 + p.val
    have hu : u.val = 0 := by omega
    omega)

/-- The score of the two arguments, flattened to [1, 21504]: what the region's output array ends holding. -/
abbrev flatScore (c : Dev nD) : Buf (Elt Ideal) ((c : Thread nD τ).loc main_v2) :=
  shapeCast S1x21504 (score (m ((c : Thread nD τ).loc main_arg0)) (m ((c : Thread nD τ).loc main_arg1))) shapeCasts_S64x336_S1x21504

/-- What point `t` writes back is its block of the flattened score. -/
theorem written_eq (c : Dev nD) (t : Fin cfg0.N) :
    (dats m 0 c).flushed 2 t = ((cfg0.win 2).blk t).view.read (Elt Ideal) (flatScore m c) := by
  show (cfg0.win 2).cut (grid0.coords t) ((dats m 0 c).after 2 t) = _
  rw [after0_2, out_eq]
  funext y
  obtain ⟨u, q, rfl⟩ : ∃ (u : Fin 1) (q : Fin 3072), y = ix2 u q := ⟨y 0, y 1, eq_ix2 (n0 := 1) (n1 := 3072) y⟩
  obtain ⟨-, -, -, -, e4, e5⟩ := idx_facts t
  have ht : t.val < 7 := Nat.lt_of_lt_of_eq t.isLt (show cfg0.N = 7 from N_0)
  have hq : q.val < 3072 := q.isLt
  have hu : u.val = 0 := by omega
  have hp : t.val * 3072 + q.val < 21504 := by omega
  have hb : (t.val * 3072 + q.val) / 336 < 64 := by omega
  have hs : (t.val * 3072 + q.val) % 336 < 336 := Nat.mod_lt _ (by decide)
  have hdm : t.val * 3072 + q.val = (t.val * 3072 + q.val) / 336 * 336 + (t.val * 3072 + q.val) % 336 := (Nat.div_add_mod' _ _).symm
  refine (row_score (iblk m c 0 t) (iblk m c 1 t) (m ((c : Thread nD τ).loc main_arg0)) (m ((c : Thread nD τ).loc main_arg1)) u q
    ⟨_, hb⟩ ⟨_, hs⟩ (fun k => ?_) ?_).trans ?_
  · rw [members_blk m c t k q ⟨_, hp⟩ rfl, members_flat]
    exact members_at _ k ⟨_, hp⟩ ⟨_, hb⟩ ⟨_, hs⟩ hdm
  · rw [obs_blk m c t q ⟨_, hp⟩ rfl, obs_flat]
    exact obs_at _ 0 ⟨_, hp⟩ ⟨_, hb⟩ ⟨_, hs⟩ hdm
  · rw [View.read_apply]
    show _ = flatScore m c (((cfg0.win 2).blk t).view.emb (ix2 u q))
    refine ((shapeCast_apply _ _ _ (ix2 (⟨_, hb⟩ : Fin 64) (⟨_, hs⟩ : Fin 336)) ?_).trans (score_apply _ _ _ _)).symm
    rw [Shape.rowMajor_val_two, Shape.rowMajor_val_two]
    show (t.val * 3072 + q.val) / 336 * 336 + (t.val * 3072 + q.val) % 336
      = (win0_2.index t (0 : Fin 2) * 1 + 1 * u.val) * 21504 + (win0_2.index t (1 : Fin 2) * 3072 + 1 * q.val)
    rw [e4, e5, hu]
    omega

/-- The seven blocks fill the [1, 21504] array: column p is in the block of point p / 3072. -/
theorem covered (c : Dev nD) (i : S1x21504.Idx) :
    ∃ t : Fin cfg0.N, (cfg0.win 2).flush t = true ∧ i ∈ ((cfg0.win 2).blk t).view.set := by
  have h0 : (i 0).val < 1 := (i 0).isLt
  have h1 : (i 1).val < 21504 := (i 1).isLt
  have hN : cfg0.N = 7 := N_0
  let t : Fin cfg0.N := ⟨(i 1).val / 3072, by rw [hN]; omega⟩
  obtain ⟨-, -, -, -, e4, e5⟩ := idx_facts t
  refine ⟨t, flush0_2 t, ?_⟩
  show i ∈ ((View.whole main_v2).slice (win0_2.rect t)).set
  rw [View.set_slice_whole, Rect.mem_set_unit]
  intro a
  match a with
  | ⟨0, _⟩ =>
    show win0_2.index t (0 : Fin 2) * 1 ≤ (i 0).val ∧ (i 0).val < win0_2.index t (0 : Fin 2) * 1 + 1
    rw [e4]; omega
  | ⟨1, _⟩ =>
    show win0_2.index t (1 : Fin 2) * 3072 ≤ (i 1).val ∧ (i 1).val < win0_2.index t (1 : Fin 2) * 3072 + 3072
    rw [e5]
    show (i 1).val / 3072 * 3072 ≤ (i 1).val ∧ (i 1).val < (i 1).val / 3072 * 3072 + 3072
    omega

/-- The region's output array after the run: the flattened score. -/
theorem flat_final (c : Dev nD) : (dats m 0 c).arrAt 2 cfg0.N = flatScore m c :=
  (dats m 0 c).arrAt_eq_of_cover 2 (flatScore m c) (fun t _ => written_eq m c t) (covered c)

/-- The last reshape undoes the flattening: the result buffer ends at the score. -/
theorem tail_eq (c : Dev nD) :
    Pipeline.afterTail₀ cfgs (dats m) 0 (V0 m) [hostOps1] c main_v3
      = score (m ((c : Thread nD τ).loc main_arg0)) (m ((c : Thread nD τ).loc main_arg1)) := by
  unfold Pipeline.afterTail₀
  show StableHlo.after hostOps1 _ (Proc.devRef .tc main_v3) = _
  after_results
  rw [(Pipeline.withArrays_arr spec0 launch0.win.arr_inj c _ _ 2).trans (flat_final m c)]
  exact shapeCast_shapeCast _ _ _

/-- The run, read: the result at the score of the arguments, the arguments unchanged. -/
theorem run : θ_run defs (onTc (τ := τ) (main (F := Ideal))) ⟨m, fun _ => 0, ρ⟩ fun r => ∀ c : Dev nD,
      r.2.mem ((c.tc : Thread nD τ).loc main_v3)
        = score (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v3 (Pipeline.mem_restRefs_of main_v3 (by decide) (by decide))).trans (tail_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.Crps.Kernel

end
-- ==== Proof.RefScore.lean ====
/-
  The reference program computes the score.

  Read one operation at a time, the reference clips the members (the maximum with the clip constant, constant first),
  moves the member axis last, subtracts the observation laid along that axis, and takes the mean of the absolute
  values over it (a sum from zero, over 50); for the second term it lays the moved array along a new fourth and a new
  third axis, subtracts, takes absolute values, sums over both member axes at once (`pairs_sum`), divides by 4900 and
  scales.  At (b, s) every stage reads the clipped member `member f b s j` (`moved_at`), and the result is
  `scoreAt f obs b s`: the same two sums and the same three constants (`reference_eq`).  The maximum's two orders
  agree (`max_comm`) and the sums' zero start is dropped (`zero_add`).
-/
import proofs.«152813_j29205777613261_1_alg».proof.Proof.Gen.ReferenceIdeal.Read
import proofs.«152813_j29205777613261_1_alg».proof.Proof.Score

noncomputable section

namespace Cert.Crps.Ref

open Idealize.ShloMosaic Idealize.ShloMosaic.ValueIdx Cert.ReferenceIdeal Cert.ReferenceIdeal.Gen Cert.ReferenceIdeal.Read Cert.Crps
open scoped BigOperators

variable (f : (⟨S50x64x336, .f32⟩ : BufTy).Contents (Elt Ideal)) (obs : (⟨S64x336, .f32⟩ : BufTy).Contents (Elt Ideal))

/-- The clip, at any index: the larger of the entry and the constant. -/
theorem clip_at (y : S50x64x336.Idx) : val_main_v0 (F := Ideal) f y = max (f y) (Ideal.ofBits .f32 0xBE892697#32) := by
  rw [val_main_v0_apply, val_main_call0_v1_apply]
  show max (Ideal.ofBits .f32 0xBE892697#32) (f y) = _
  exact max_comm _ _

/-- The array with the member axis moved last, at (b, s, j): member j at (b, s), clipped. -/
theorem moved_at (b : Fin 64) (s : Fin 336) (j : Fin 50) : val_main_v1 (F := Ideal) f (ix3 b s j) = member f b s j := by
  rw [val_main_v1_apply, clip_at]
  have e : idx_main_v1 (ix3 b s j) = ix3 j b s := by
    funext a
    apply Fin.ext
    match a with
    | ⟨0, _⟩ => rfl
    | ⟨1, _⟩ => rfl
    | ⟨2, _⟩ => rfl
  rw [e]
  rfl

/-- The first term's summand at (b, s, j): the distance of member j to the observation. -/
theorem dist_at (b : Fin 64) (s : Fin 336) (j : Fin 50) :
    val_main_v5 (F := Ideal) f obs (idx_main_v6 (ix2 b s) j) = eabs (member f b s j - obs (ix2 b s)) := by
  have e6 : idx_main_v6 (ix2 b s) j = ix3 b s j := by
    funext a
    apply Fin.ext
    match a with
    | ⟨0, _⟩ => rfl
    | ⟨1, _⟩ => rfl
    | ⟨2, _⟩ => rfl
  have e3 : idx_main_v2 (idx_main_v3 (ix3 b s j)) = ix2 b s := by
    funext a
    apply Fin.ext
    match a with
    | ⟨0, _⟩ => rfl
    | ⟨1, _⟩ => rfl
  rw [e6, val_main_v5_apply, val_main_v4_apply, moved_at, val_main_v3_apply, val_main_v2_apply, e3]
  rfl

/-- The second term's summand at (b, s, j, k): the distance between members j and k. -/
theorem pair_at (b : Fin 64) (s : Fin 336) (j k : Fin 50) :
    val_main_v14 (F := Ideal) f (ix4 b s j k) = eabs (member f b s j - member f b s k) := by
  have e1 : idx_main_v9 (idx_main_v11 (ix4 b s j k)) = ix3 b s j := by
    funext a
    apply Fin.ext
    match a with
    | ⟨0, _⟩ => rfl
    | ⟨1, _⟩ => rfl
    | ⟨2, _⟩ => rfl
  have e2 : idx_main_v10 (idx_main_v12 (ix4 b s j k)) = ix3 b s k := by
    funext a
    apply Fin.ext
    match a with
    | ⟨0, _⟩ => rfl
    | ⟨1, _⟩ => rfl
    | ⟨2, _⟩ => rfl
  rw [val_main_v14_apply, val_main_v13_apply, val_main_v11_apply, val_main_v9_apply, e1, moved_at,
    val_main_v12_apply, val_main_v10_apply, e2, moved_at]
  rfl

/-- The sum over both member axes at (b, s). -/
theorem pairs_at (b : Fin 64) (s : Fin 336) :
    val_main_v15 (F := Ideal) f (ix2 b s) = ∑ j : Fin 50, ∑ k : Fin 50, eabs (member f b s j - member f b s k) := by
  unfold val_main_v15
  simp only [Host.reduceAdd, Ideal.hostReduceAdd_def]
  rw [pairs_sum]
  show Ideal.ofBits .f32 0x00000000#32 + _ = _
  rw [Ideal.ofBits_zero_f32, zero_add]
  exact Finset.sum_congr rfl fun j _ => Finset.sum_congr rfl fun k _ => pair_at f b s j k

/-- The reference's result is the score of its two arguments. -/
theorem reference_eq : val_main_v20 (F := Ideal) f obs = score f obs := by
  funext i
  obtain ⟨b, s, rfl⟩ : ∃ (b : Fin 64) (s : Fin 336), i = ix2 b s := ⟨i 0, i 1, eq_ix2 i⟩
  rw [score_apply, val_main_v20_apply, val_main_v8_apply, val_main_v6_apply, val_main_v19_apply, val_main_v17_apply,
    pairs_at, val_main_v7_apply, val_main_v16_apply, val_main_v18_apply]
  simp only [dist_at]
  show Ideal.div (Ideal.ofBits .f32 0x00000000#32 + _) (Ideal.ofBits .f32 0x42480000#32)
      - Ideal.ofBits .f32 0x3F7FF972#32 * Ideal.div _ (Ideal.ofBits .f32 0x45992000#32) = _
  rw [Ideal.ofBits_zero_f32, zero_add]
  rfl

end Cert.Crps.Ref

end
-- ==== Proof.lean ====
/-
  An ensemble score, tiled over columns, equals its whole-array form over the extended reals.

  Both programs take 50 ensemble members f[j, b, s] and an observation obs[b, s], clip every member below at one
  constant, and return at each (b, s)
      (Σ_j |c_j − obs|) / 50  −  κ · (Σ_j Σ_k |c_j − c_k|) / 4900,      c_j = max(f[j, b, s], clip),
  with the same three single-precision constants.  The reference forms the [64, 336, 50, 50] array of pairwise
  distances and sums it over both member axes at once.  The kernel flattens (b, s) to one column axis of 21504, walks
  it in seven blocks of 3072 columns, and inside a block accumulates the pairwise sum one member row at a time from a
  zero start.  The two differ only in how one finite sum is grouped and in the order of the maximum's operands:
  + on the extended reals is commutative and associative and max is commutative, so the results agree entry by entry
  whether or not the inputs are finite, and the precondition is never opened.

  `Cert.Crps.score` is that function of the two arguments.  `Cert.Crps.Ref.reference_eq` reads the reference's
  operations into it; `Cert.Crps.Kernel.run` reads the kernel's run into it (the row steps, the seven blocks filling
  the flattened array, the reshapes around the region).  The kernel's idealization rewrote nothing, so the
  idealization conjunct is trivial.
-/
import proofs.«152813_j29205777613261_1_alg».proof.Defs
import proofs.«152813_j29205777613261_1_alg».proof.Proof.Gen.Kernel
import proofs.«152813_j29205777613261_1_alg».proof.Proof.Gen.Kernel.Skeleton
import proofs.«152813_j29205777613261_1_alg».proof.Proof.Gen.Kernel.Launch
import proofs.«152813_j29205777613261_1_alg».proof.Proof.Gen.Kernel.Points
import proofs.«152813_j29205777613261_1_alg».proof.Proof.Gen.Kernel.Frame
import proofs.«152813_j29205777613261_1_alg».proof.Proof.Gen.KernelIdeal
import proofs.«152813_j29205777613261_1_alg».proof.Proof.Gen.KernelIdeal.Skeleton
import proofs.«152813_j29205777613261_1_alg».proof.Proof.Gen.KernelIdeal.Launch
import proofs.«152813_j29205777613261_1_alg».proof.Proof.Gen.KernelIdeal.Points
import proofs.«152813_j29205777613261_1_alg».proof.Proof.Gen.KernelIdeal.Frame
import proofs.«152813_j29205777613261_1_alg».proof.Proof.Gen.ReferenceIdeal
import proofs.«152813_j29205777613261_1_alg».proof.Proof.Gen.Pre_finite_inputs
import proofs.«152813_j29205777613261_1_alg».proof.Proof.Gen.ReferenceIdeal.Run
import proofs.«152813_j29205777613261_1_alg».proof.Proof.Gen.ReferenceIdeal.Read
import proofs.«152813_j29205777613261_1_alg».proof.Proof.KernelScore
import proofs.«152813_j29205777613261_1_alg».proof.Proof.RefScore
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is straight-line host code: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on the members and the observation, both programs end at the score of those arguments. -/
theorem algebraic : Cert.algebraic_KernelIdeal_ReferenceIdeal := by
  intro m ρ m' ρ' _ hagree
  refine ⟨fun c => Cert.Crps.score (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.Crps.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, Cert.Crps.Ref.reference_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
